-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10000 : Shape := ⟨2, ![4096, 10000]⟩
abbrev S100x10000 : Shape := ⟨2, ![100, 10000]⟩
abbrev S_ : Shape := ⟨0, ![]⟩

class Facts : Prop where
  bcast_S_S4096x10000 : S_.BroadcastsInDim S4096x10000 (![] : Fin 0 → Fin S4096x10000.rank)
  reducesTo_S4096x10000_S_d0_1 : S4096x10000.ReducesTo [0, 1] S_
  h_S_ : 0 < S_.numel
  bcast_S_S100x10000 : S_.BroadcastsInDim S100x10000 (![] : Fin 0 → Fin S100x10000.rank)
  reducesTo_S100x10000_S_d0_1 : S100x10000.ReducesTo [0, 1] S_

variable [Facts]

def fn {F : FTy → Type} [FloatOps F] (main_arg0 : FVec F S4096x10000 .f32) (main_arg1 : FVec F S100x10000 .f32) : IVec S_ 1 :=
  let main_v0 : FVec F S4096x10000 .f32 := Host.absf main_arg0
  let main_cst : FVec F S_ .f32 := constant S_ .f32 0x7F800000#32
  let main_v1 : FVec F S4096x10000 .f32 := broadcastInDim S4096x10000 ![] bcast_S_S4096x10000 main_cst
  let main_v2 : IVec S4096x10000 1 := cmpf .olt main_v0 main_v1
  let main_c : IVec S_ 1 := constantI S_ 1 1#1
  let main_v3 : IVec S_ 1 := (fun x v => Host.reduce IntOp.andi x v reducesTo_S4096x10000_S_d0_1 h_S_) main_v2 main_c
  let main_v4 : FVec F S100x10000 .f32 := Host.absf main_arg1
  let main_cst_0 : FVec F S_ .f32 := constant S_ .f32 0x7F800000#32
  let main_v5 : FVec F S100x10000 .f32 := broadcastInDim S100x10000 ![] bcast_S_S100x10000 main_cst_0
  let main_v6 : IVec S100x10000 1 := cmpf .olt main_v4 main_v5
  let main_c_1 : IVec S_ 1 := constantI S_ 1 1#1
  let main_v7 : IVec S_ 1 := (fun x v => Host.reduce IntOp.andi x v reducesTo_S100x10000_S_d0_1 h_S_) main_v6 main_c_1
  let main_v8 : IVec S_ 1 := andi main_v3 main_v7
  main_v8
-- ==== Kernel.lean ====
abbrev S4096x10000 : Shape := ⟨2, ![4096, 10000]⟩
abbrev S100x10000 : Shape := ⟨2, ![100, 10000]⟩
abbrev S_ : Shape := ⟨0, ![]⟩
abbrev S100 : Shape := ⟨1, ![100]⟩
abbrev S1x100 : Shape := ⟨2, ![1, 100]⟩
abbrev S4096x100 : Shape := ⟨2, ![4096, 100]⟩
abbrev S256x10000 : Shape := ⟨2, ![256, 10000]⟩
abbrev S256x100 : Shape := ⟨2, ![256, 100]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x10000, .f32⟩
  | .hbm, ⟨1, _⟩ => ⟨S100x10000, .f32⟩
  | .hbm, ⟨2, _⟩ => ⟨S_, .f32⟩
  | .hbm, ⟨3, _⟩ => ⟨S100, .f32⟩
  | .hbm, ⟨4, _⟩ => ⟨S1x100, .f32⟩
  | .hbm, ⟨5, _⟩ => ⟨S4096x100, .f32⟩
  | .local _ .vmem, ⟨0, _⟩ => ⟨S256x10000, .f32⟩
  | .local _ .vmem, ⟨1, _⟩ => ⟨S256x10000, .f32⟩
  | .local _ .vmem, ⟨2, _⟩ => ⟨S100x10000, .f32⟩
  | .local _ .vmem, ⟨3, _⟩ => ⟨S1x100, .f32⟩
  | .local _ .vmem, ⟨4, _⟩ => ⟨S256x100, .f32⟩
  | .local _ .vmem, ⟨5, _⟩ => ⟨S256x100, .f32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S100x10000_S100_d1 : S100x10000.ReducesTo [1] S100
  h_S_ : 0 < S_.numel
  shapeCasts_S100_S1x100 : S100.ShapeCasts S1x100
  inb_S256x10000_S256x10000_0_0 : ∀ a, (![0, 0] : Fin 2 → Nat) a + S256x10000.size a ≤ S256x10000.size a
  h_S256x10000 : 0 < S256x10000.numel
  inb_S100x10000_S100x10000_0_0 : ∀ a, (![0, 0] : Fin 2 → Nat) a + S100x10000.size a ≤ S100x10000.size a
  h_S100x10000 : 0 < S100x10000.numel
  bitsLt_bf16_f32 : FTy.bits .bf16 < FTy.bits .f32
  reduces_S256x10000_S256 : S256x10000.Reduces [1] S256
  shapeCasts_S256_S256x1 : S256.ShapeCasts S256x1
  broadcasts_S256x1_S256x100 : S256x1.Broadcasts S256x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S256x100 : S1x100.Broadcasts S256x100
  inb_S256x100_S256x100_0_0 : ∀ a, (![0, 0] : Fin 2 → Nat) a + S256x100.size a ≤ S256x100.size a
  h_S256x100 : 0 < S256x100.numel
  dot_S256x10000_S100x10000_S256x100_1_1_0_0_n_n_wf : DotDims.WF S256x10000 S100x10000 S256x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10000.size a ≤ S4096x10000.size a
  hwx0_0 : ∀ i : grid0.Coords, EltTy.bits .f32 = 32 ∨ (Rect.block (s := S4096x10000) S256x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x10000.size a ≤ S100x10000.size a
  hwx0_1 : ∀ i : grid0.Coords, EltTy.bits .f32 = 32 ∨ (Rect.block (s := S100x10000) S100x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x100.size a ≤ S4096x100.size a
  hwx0_3 : ∀ i : grid0.Coords, EltTy.bits .f32 = 32 ∨ (Rect.block (s := S4096x100) S256x100.size (cc0_transform_3 i) (hinb0_3 i)).WholeWords (EltTy.packing .f32)

variable [Facts₀]

def dot_S256x10000_S100x10000_S256x100_1_1_0_0_n_n : DotDims S256x10000 S100x10000 S256x100 where
  lhsContracting := [1]
  rhsContracting := [1]
  lhsNonContracting := [0]
  rhsNonContracting := [0]
  lhsBatch := []
  rhsBatch := []
  wf := dot_S256x10000_S100x10000_S256x100_1_1_0_0_n_n_wf

abbrev win0_0 : Pipeline.Window sig grid0 :=
  Pipeline.Window.ofSpec (Memref.whole main_arg0) S256x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x10000 : Shape := ⟨2, ![4096, 10000]⟩
abbrev S100x10000 : Shape := ⟨2, ![100, 10000]⟩
abbrev S4096x100 : Shape := ⟨2, ![4096, 100]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S100x10000, .f32⟩
  | .hbm, ⟨2, _⟩ => ⟨S4096x100, .f32⟩
  | .hbm, ⟨3, _⟩ => ⟨S_, .f32⟩
  | .hbm, ⟨4, _⟩ => ⟨S4096x10000, .f32⟩
  | .hbm, ⟨5, _⟩ => ⟨S4096x10000, .f32⟩
  | .hbm, ⟨6, _⟩ => ⟨S_, .f32⟩
  | .hbm, ⟨7, _⟩ => ⟨S100x10000, .f32⟩
  | .hbm, ⟨8, _⟩ => ⟨S100x10000, .f32⟩
  | .hbm, ⟨9, _⟩ => ⟨S4096x100, .f32⟩
  | .hbm, ⟨10, _⟩ => ⟨S4096x100, .f32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S4096x10000 : S_.BroadcastsInDim S4096x10000 (![] : Fin 0 → Fin S4096x10000.rank)
  bcast_S_S100x10000 : S_.BroadcastsInDim S100x10000 (![] : Fin 0 → Fin S100x10000.rank)
  dot_S4096x10000_S100x10000_S4096x100_1_1_0_0_n_n_wf : DotDims.WF S4096x10000 S100x10000 S4096x100 [1] [1] [0] [0] [] []

variable [Facts₀]

def dot_S4096x10000_S100x10000_S4096x100_1_1_0_0_n_n : DotDims S4096x10000 S100x10000 S4096x100 where
  lhsContracting := [1]
  rhsContracting := [1]
  lhsNonContracting := [0]
  rhsNonContracting := [0]
  lhsBatch := []
  rhsBatch := []
  wf := dot_S4096x10000_S100x10000_S4096x100_1_1_0_0_n_n_wf

class Facts : Prop extends Facts₀ where

variable [Facts]
-- ==== Proof.FiniteEntries.lean ====
/-
  What the precondition says of the two input arrays, entry by entry.

  The precondition is the conjunction of two `all`s: every entry `x` of each input has `|x| < +∞`, where `|x|` is
  `max x (−x)` on the extended reals and `+∞` is the word `0x7F800000`. An extended real with `max x (−x) < ⊤` is
  neither infinity, so it is a real number. This is the only use the certificate makes of the precondition: the law
  that joins the two programs distributes a product over a sum, which holds for reals and fails at the infinities.
-/
import proofs.«115294_j38036230373918_1_alg».proof.Pre_finite_inputs
import Idealize.ShloMosaic.PureOps.Ideal
import Idealize.ShloMosaic.Lib.ReduceAll
import Idealize.ShloMosaic.Lib.ValueIdx

noncomputable section

namespace Cert.FiniteEntries

open Idealize.ShloMosaic Cert.Pre_finite_inputs

/-- An extended real whose absolute value compares below the word of `+∞` is a real: at either infinity the
    absolute value is `⊤`, which is not below `⊤`. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- The scalar shape has one index. -/
instance : Subsingleton S_.Idx := ⟨fun _ _ => funext fun d => d.elim0⟩

/-- Under the precondition every entry of the first input and every entry of the second is a real number. -/
theorem entries_real [Facts] (x0 : FVec Ideal S4096x10000 .f32) (x1 : FVec Ideal S100x10000 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  exact ⟨fun i => real_of_abs_lt _ (Host.reduce_andi_all _ _ _ _ _ ha i),
    fun i => real_of_abs_lt _ (Host.reduce_andi_all _ _ _ _ _ hb i)⟩

end Cert.FiniteEntries

end
-- ==== Proof.MatchCount.lean ====
/-
  Counting the positions where two rows agree, in two arrangements.

  For a row `q` and a row `a` of `n` numbers the reference adds two products,
      Σ q·a + Σ (1 − q)·(1 − a)
  (for 0/1 entries: the positions where both are one, plus the positions where both are zero), and the kernel
  computes ONE product and corrects it by the two row sums,
      ((2·Σ q·a + n) − Σ q) − (0 + Σ a).
  Over the reals these are one number for ANY entries, not only 0/1 ones: (1 − q)(1 − a) = 1 − q − a + q·a, and the
  sum of n ones is n. On the extended reals the step distributes a product over a sum and cancels, which fails at the
  infinities, so the law is stated for rows whose entries are real.

  The words of the four float literals the two programs spell are read here once: 2, 10000 (the row length n),
  1 and 0.
-/
import Idealize.ShloMosaic.PureOps.Ideal
import Idealize.ShloMosaic.PureOps.Ideal.Laws
import Idealize.ShloMosaic.Lib.ValueIdx

noncomputable section

open scoped BigOperators

namespace Cert.MatchCount

open Idealize.ShloMosaic

/-! ## The literals -/

/-- The word of `2.0` denotes the real 2. -/
theorem ofBits_two : Ideal.ofBits .f32 0x40000000#32 = ((2 : ℝ) : EReal) := by
  simp [Ideal.ofBits, Ideal.ieee, -EReal.coe_mul]; norm_num

/-- The word of `10000.0`, the length of a row, denotes the real 10000. -/
theorem ofBits_rowLength : Ideal.ofBits .f32 0x461C4000#32 = ((10000 : ℝ) : EReal) := by
  simp [Ideal.ofBits, Ideal.ieee, -EReal.coe_mul]; norm_num

/-- The word of `1.0` denotes the real 1. -/
theorem ofBits_one : Ideal.ofBits .f32 0x3F800000#32 = ((1 : ℝ) : EReal) := by
  simp [Ideal.ofBits, Ideal.ieee, -EReal.coe_mul]; norm_num

/-! ## The law over the reals -/

/-- One product corrected by the two row sums is the two products: each summand `(1 − q)(1 − a)` is
    `1 − q − a + q·a`, and the `n` ones add up to `n`. -/
theorem real_law {n : ℕ} (q a : Fin n → ℝ) :
    ((2 * ∑ k, q k * a k + (n : ℝ)) - ∑ k, q k) - (0 + ∑ k, a k)
      = ∑ k, q k * a k + ∑ k, (1 - q k) * (1 - a k) := by
  have h : ∀ k, (1 - q k) * (1 - a k) = 1 - q k - a k + q k * a k := fun k => by ring
  simp only [h, Finset.sum_add_distrib, Finset.sum_sub_distrib, Finset.sum_const, Finset.card_univ,
    Fintype.card_fin, nsmul_eq_mul, mul_one]
  ring

/-! ## The same on the extended reals, for real entries -/

/-- A finite sum of reals, each read as an extended real, is the real sum read as one. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert b s hb ih => rw [Finset.sum_insert hb, Finset.sum_insert hb, ih, EReal.coe_add]

/-- The kernel's arrangement of one pair of rows: one product, doubled, plus the row length, less the two row sums
    (the second as the host summed it, from a zero initial value). The literals stay as their words. -/
def oneProduct (q a : Fin 10000 → EReal) : EReal :=
  ((Ideal.ofBits .f32 0x40000000#32 * ∑ k, q k * a k + Ideal.ofBits .f32 0x461C4000#32) - ∑ k, q k)
    - (Ideal.ofBits .f32 0x00000000#32 + ∑ k, a k)

/-- The reference's arrangement of the same pair: the product of the rows plus the product of their complements. -/
def twoProducts (q a : Fin 10000 → EReal) : EReal :=
  ∑ k, q k * a k
    + ∑ k, (Ideal.ofBits .f32 0x3F800000#32 - q k) * (Ideal.ofBits .f32 0x3F800000#32 - a k)

/-- For rows of real entries the two arrangements are one extended real: every term is the image of a real one, so the
    law over the reals carries over. -/
theorem oneProduct_eq_twoProducts (q a : Fin 10000 → EReal) (hq : ∀ k, ∃ r : ℝ, q k = (r : EReal))
    (ha : ∀ k, ∃ r : ℝ, a k = (r : EReal)) : oneProduct q a = twoProducts q a := by
  choose q' hq' using hq
  choose a' ha' using ha
  have eq : q = fun k => ((q' k : ℝ) : EReal) := funext hq'
  have ea : a = fun k => ((a' k : ℝ) : EReal) := funext ha'
  subst eq ea
  unfold oneProduct twoProducts
  rw [ofBits_two, ofBits_rowLength, ofBits_one, Ideal.ofBits_zero_f32]
  have e1 : ∀ k, ((q' k : ℝ) : EReal) * ((a' k : ℝ) : EReal) = ((q' k * a' k : ℝ) : EReal) :=
    fun k => (EReal.coe_mul _ _).symm
  have e2 : ∀ k, (((1 : ℝ) : EReal) - ((q' k : ℝ) : EReal)) * (((1 : ℝ) : EReal) - ((a' k : ℝ) : EReal))
      = (((1 - q' k) * (1 - a' k) : ℝ) : EReal) := fun k => by
    rw [← EReal.coe_sub, ← EReal.coe_sub, ← EReal.coe_mul]
  simp only [e1, e2, coe_sum]
  rw [← EReal.coe_zero, ← EReal.coe_mul, ← EReal.coe_add, ← EReal.coe_add, ← EReal.coe_sub, ← EReal.coe_sub,
    ← EReal.coe_add]
  exact congrArg _ (by have := real_law q' a'; push_cast at this; exact this)

/-! ## The whole result array -/

open Idealize.ShloMosaic.ValueIdx

/-- The 4096 × 100 result in the kernel's arrangement: entry `(r, c)` pairs row `r` of the first input with row `c`
    of the second. -/
def oneProductArray (q : (⟨2, ![4096, 10000]⟩ : Shape).Idx → EReal) (a : (⟨2, ![100, 10000]⟩ : Shape).Idx → EReal) :
    (⟨2, ![4096, 100]⟩ : Shape).Idx → EReal :=
  fun i => oneProduct (fun k => q (ix2 (i 0 : Fin 4096) k)) (fun k => a (ix2 (i 1 : Fin 100) k))

/-- The same result in the reference's arrangement. -/
def twoProductsArray (q : (⟨2, ![4096, 10000]⟩ : Shape).Idx → EReal) (a : (⟨2, ![100, 10000]⟩ : Shape).Idx → EReal) :
    (⟨2, ![4096, 100]⟩ : Shape).Idx → EReal :=
  fun i => twoProducts (fun k => q (ix2 (i 0 : Fin 4096) k)) (fun k => a (ix2 (i 1 : Fin 100) k))

/-- For inputs of real entries the two arrays are one. -/
theorem oneProductArray_eq_twoProductsArray (q : (⟨2, ![4096, 10000]⟩ : Shape).Idx → EReal)
    (a : (⟨2, ![100, 10000]⟩ : Shape).Idx → EReal) (hq : ∀ i, ∃ r : ℝ, q i = (r : EReal))
    (ha : ∀ i, ∃ r : ℝ, a i = (r : EReal)) : oneProductArray q a = twoProductsArray q a :=
  funext fun _ => oneProduct_eq_twoProducts _ _ (fun _ => hq _) (fun _ => ha _)

end Cert.MatchCount

end
-- ==== Proof.BlockPayload.lean ====
/-
  What one grid step stores, entry by entry.

  At a grid step the body holds a block `x0` of 256 rows of the first input, the whole second input `x1` (100 rows) and
  the 1 × 100 row `x2` the host prepared. Its one store writes, at row `p` and column `c` of the 256 × 100 output block,
      ((2 · Σ_k x0(p, k) · x1(c, k) + 10000) − Σ_k x0(p, k)) − x2(0, c):
  the matrix product contracts the two operands' SECOND axes (row `p` of the block against row `c` of the second input;
  the narrowing to a shorter float format in front of it is the identity on extended reals), the lane sum of row `p` is
  kept as a 256 × 1 column and spread along the columns, and the prepared row is spread down the rows.
-/
import proofs.«115294_j38036230373918_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockPayload

open Cert.KernelIdeal Cert.KernelIdeal.Gen Idealize.ShloMosaic Idealize.ShloMosaic.ValueIdx

/-! ## A column kept beside a matrix -/

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of the block's rows with the second input's rows -/

/-- On the left operand's kept axis the operand index is the output's row. -/
theorem lhs_row (i : S256x100.Idx) (q : dot_S256x10000_S100x10000_S256x100_1_1_0_0_n_n.contr.Idx) :
    (dot_S256x10000_S100x10000_S256x100_1_1_0_0_n_n.lhsIdx i q 0).val = (i 0).val := by
  unfold DotDims.lhsIdx
  rw [dif_neg (show ¬(0 : Fin S256x10000.rank) ∈ dot_S256x10000_S100x10000_S256x100_1_1_0_0_n_n.lhsBatch by decide), dif_pos (show (0 : Fin S256x10000.rank) ∈ dot_S256x10000_S100x10000_S256x100_1_1_0_0_n_n.lhsNonContracting by decide)]
  rfl
/-- On the left operand's contracted axis it is the contraction position. -/
theorem lhs_contracted (i : S256x100.Idx) (q : dot_S256x10000_S100x10000_S256x100_1_1_0_0_n_n.contr.Idx) :
    (dot_S256x10000_S100x10000_S256x100_1_1_0_0_n_n.lhsIdx i q 1).val = (q ⟨0, by decide⟩).val :=
  dot_S256x10000_S100x10000_S256x100_1_1_0_0_n_n.lhsIdx_val_of_single rfl i q
/-- On the right operand's kept axis the operand index is the output's column. -/
theorem rhs_row (i : S256x100.Idx) (q : dot_S256x10000_S100x10000_S256x100_1_1_0_0_n_n.contr.Idx) :
    (dot_S256x10000_S100x10000_S256x100_1_1_0_0_n_n.rhsIdx i q 0).val = (i 1).val := by
  unfold DotDims.rhsIdx
  rw [dif_neg (show ¬(0 : Fin S100x10000.rank) ∈ dot_S256x10000_S100x10000_S256x100_1_1_0_0_n_n.rhsBatch by decide), dif_pos (show (0 : Fin S100x10000.rank) ∈ dot_S256x10000_S100x10000_S256x100_1_1_0_0_n_n.rhsNonContracting by decide)]
  rfl
/-- On the right operand's contracted axis it is the contraction position. -/
theorem rhs_contracted (i : S256x100.Idx) (q : dot_S256x10000_S100x10000_S256x100_1_1_0_0_n_n.contr.Idx) :
    (dot_S256x10000_S100x10000_S256x100_1_1_0_0_n_n.rhsIdx i q 1).val = (q ⟨0, by decide⟩).val :=
  dot_S256x10000_S100x10000_S256x100_1_1_0_0_n_n.rhsIdx_val_of_single rfl i q

/-- The matrix product into the zero splat, read at `(p, c)`: row `p` of the left operand against row `c` of the
    right one, summed over the 10000 positions of a row. -/
theorem product_at (l : FVec Ideal S256x10000 .bf16) (r : FVec Ideal S100x10000 .bf16) (p : Fin 256) (c : Fin 100) :
    matmul dot_S256x10000_S100x10000_S256x100_1_1_0_0_n_n none l r (constant (F := Ideal) S256x100 .f32 0x00000000#32) (ix2 p c)
      = ∑ k : Fin 10000, l (ix2 p k) * r (ix2 c k) := by
  simp only [matmul]
  rw [Ideal.matmul_constant_zero_apply, ← Equiv.sum_comp (ValueIdx.contrEquiv1 dot_S256x10000_S100x10000_S256x100_1_1_0_0_n_n 10000 rfl rfl).symm]
  refine Finset.sum_congr rfl fun k _ => ?_
  have hk := ValueIdx.contrEquiv1_symm_val dot_S256x10000_S100x10000_S256x100_1_1_0_0_n_n 10000 rfl rfl k
  have el : dot_S256x10000_S100x10000_S256x100_1_1_0_0_n_n.lhsIdx (ix2 p c) ((ValueIdx.contrEquiv1 dot_S256x10000_S100x10000_S256x100_1_1_0_0_n_n 10000 rfl rfl).symm k) = ix2 p k := funext fun a => Fin.ext (by
    match a with
    | ⟨0, _⟩ => exact lhs_row _ _
    | ⟨1, _⟩ => exact (lhs_contracted _ _).trans hk)
  have er : dot_S256x10000_S100x10000_S256x100_1_1_0_0_n_n.rhsIdx (ix2 p c) ((ValueIdx.contrEquiv1 dot_S256x10000_S100x10000_S256x100_1_1_0_0_n_n 10000 rfl rfl).symm k) = ix2 c k := funext fun a => Fin.ext (by
    match a with
    | ⟨0, _⟩ => exact rhs_row _ _
    | ⟨1, _⟩ => exact (rhs_contracted _ _).trans hk)
  rw [el, er]

/-! ## The sum of a row of the block -/

/-- The lane sum of the block, read at row `p`: the sum of the row's 10000 entries. -/
theorem rowSum_at (x : FVec Ideal S256x10000 .f32) (hφ : FKind.Formats .f32)
    (hacc : (0x00000000#32 : BitVec 32) = 0x00000000#32) (p : Fin 256) :
    multiReduction (F := Ideal) .add [1] S256 x 0x00000000#32 reduces_S256x10000_S256 hφ hacc (ix1 p)
      = ∑ k : Fin 10000, x (ix2 p k) := by
  refine (Ideal.multiReduction_add_single x 0x00000000#32 reduces_S256x10000_S256 hφ hacc (ix1 p)).trans ?_
  refine Finset.sum_congr rfl fun k _ => congrArg x ?_
  funext a
  match a with
  | ⟨0, _⟩ => rfl
  | ⟨1, _⟩ => rfl

/-! ## The stored entry -/

/-- The body's one store at row `p`, column `c` of the output block. -/
theorem payload_at (x0 : FVec Ideal S256x10000 .f32) (x1 : FVec Ideal S100x10000 .f32) (x2 : FVec Ideal S1x100 .f32)
    (p : Fin 256) (c : Fin 100) :
    k0_pay1 (F := Ideal) x0 x1 x2 (ix2 p c)
      = ((Ideal.ofBits .f32 0x40000000#32 * ∑ k : Fin 10000, x0 (ix2 p k) * x1 (ix2 c k) + Ideal.ofBits .f32 0x461C4000#32)
          - ∑ k : Fin 10000, x0 (ix2 p k)) - x2 (ix2 (0 : Fin 1) c) := by
  unfold k0_pay1
  rw [subf_apply, subf_apply, addf_apply, mulf_apply, broadcast_apply, broadcast_apply]
  rw [product_at, broadcastTo_a1_ab_apply, shapeCast_a_a1_apply, rowSum_at, broadcastTo_1b_ab_apply, shapeCast_self]
  rfl

end Cert.KernelIdeal.BlockPayload

end
-- ==== Proof.PreparedRow.lean ====
/-
  The row the host prepares before the region.

  Before the kernel is launched the host sums each of the 100 rows of the second input (a sum over the row's 10000
  entries, from the initial value `0.0`) and reshapes the 100 sums into a 1 × 100 row; the kernel's third window
  stages that row whole at every grid step. So the row's entry at column `j` is `0 + Σ_k a(j, k)`.
-/
import proofs.«115294_j38036230373918_1_alg».proof.Proof.Gen.KernelIdeal.Frame
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.KernelIdeal.PreparedRow

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The second input as launched on core `c`, at its literal type: 100 rows of 10000 extended reals. -/
abbrev secondInput (c : Dev nD) : FVec Ideal S100x10000 .f32 := m ((c : Thread nD τ).loc main_arg1)

/-- What the region finds in the prepared row's buffer: the host's row sums of the second input, reshaped. -/
theorem preparedRow_eq (c : Dev nD) :
    (V m c main_v1 : S1x100.Idx → EReal)
      = shapeCast S1x100 (Host.reduceAdd (F := Ideal) (secondInput m c)
          (constant (F := Ideal) S_ .f32 0x00000000#32) reducesTo_S100x10000_S100_d1 h_S_) shapeCasts_S100_S1x100 := by
  dsimp only [V, hostOps0]
  after_results
  rfl

/-- Its entry at column `j`: the initial value plus the sum of row `j` of the second input. -/
theorem preparedRow_at (c : Dev nD) (j : Fin 100) :
    (V m c main_v1 : S1x100.Idx → EReal) (ix2 (0 : Fin 1) j)
      = Ideal.ofBits .f32 0x00000000#32 + ∑ k : Fin 10000, secondInput m c (ix2 j k) := by
  rw [preparedRow_eq, shapeCast_a_1a_apply]
  refine (Ideal.hostReduceAdd_single reducesTo_S100x10000_S100_d1 (by decide : S100x10000.Reduces [1] S100) _ _ (ix1 j)).trans ?_
  refine congrArg (Ideal.ofBits .f32 0x00000000#32 + ·) (Finset.sum_congr rfl fun k _ => congrArg _ ?_)
  funext a
  match a with
  | ⟨0, _⟩ => rfl
  | ⟨1, _⟩ => rfl

end Cert.KernelIdeal.PreparedRow

end
-- ==== Proof.KernelArray.lean ====
/-
  The whole result array after the kernel's run.

  The grid has 16 steps; step `t` reads rows 256·t … 256·t + 255 of the first input, the whole second input and the
  whole prepared row, and writes rows 256·t … 256·t + 255 of the 4096 × 100 result. Every step writes back, the 16
  blocks of rows tile the result, and what step `t` writes is block `t` of ONE function of the two inputs: entry
  `(r, c)` is the kernel's arrangement of row `r` of the first input against row `c` of the second. So the result
  array ends holding that function.
-/
import proofs.«115294_j38036230373918_1_alg».proof.Proof.Gen.KernelIdeal.Value
import proofs.«115294_j38036230373918_1_alg».proof.Proof.MatchCount
import proofs.«115294_j38036230373918_1_alg».proof.Proof.BlockPayload
import proofs.«115294_j38036230373918_1_alg».proof.Proof.PreparedRow

noncomputable section

open scoped BigOperators

namespace Cert.KernelIdeal.ArrayValue

open Cert.KernelIdeal Cert.KernelIdeal.Gen Idealize.ShloMosaic Idealize.ShloMosaic.TcCoe Idealize.ShloMosaic.ValueIdx
open Idealize.SL.Sem Cert.KernelIdeal.PreparedRow
open Idealize.ShloMosaic.Pipeline (Dat)

variable (m : (ℓ : Loc nD τ sig) → Buf (Elt Ideal) ℓ) (ρ : Dev nD → PrngReg)

/-- The first input as launched on core `c`, at its literal type: 4096 rows of 10000 extended reals. -/
abbrev firstInput (c : Dev nD) : FVec Ideal S4096x10000 .f32 := m ((c : Thread nD τ).loc main_arg0)

/-! ## One grid step, over plain arrays -/

/-- If the three loaded blocks are what the windows stage at step `T` — rows 256·T … of `q`, the whole of `a`, and the
    row of `a`'s row sums — then the stored entry at `y` is the kernel's arrangement at the array index `i` that `y`
    names in block `T`. -/
theorem stored_entry (x0 : FVec Ideal S256x10000 .f32) (x1 : FVec Ideal S100x10000 .f32) (x2 : FVec Ideal S1x100 .f32)
    (q : FVec Ideal S4096x10000 .f32) (a : FVec Ideal S100x10000 .f32) (y : S256x100.Idx) (i : S4096x100.Idx) (T : ℕ)
    (h0 : ∀ (p : Fin 256) (k : Fin 10000) (r : Fin 4096), r.val = T * 256 + p.val → x0 (ix2 p k) = q (ix2 r k))
    (h1 : x1 = a)
    (h2 : ∀ j : Fin 100, x2 (ix2 (0 : Fin 1) j) = Ideal.ofBits .f32 0x00000000#32 + ∑ k : Fin 10000, a (ix2 j k))
    (hi0 : (i 0).val = T * 256 + (y 0).val) (hi1 : (i 1).val = (y 1).val) :
    k0_pay1 (F := Ideal) x0 x1 x2 y = Cert.MatchCount.oneProductArray q a i := by
  obtain ⟨p, c, rfl⟩ : ∃ (p : Fin 256) (c : Fin 100), y = ix2 p c := ⟨y 0, y 1, eq_ix2 y⟩
  rw [BlockPayload.payload_at, h2 c]
  subst h1
  have hc : (i 1 : Fin 100) = c := Fin.ext hi1
  unfold Cert.MatchCount.oneProductArray Cert.MatchCount.oneProduct
  rw [hc]
  simp only [h0 p _ (i 0 : Fin 4096) hi0]

/-! ## The printed index maps over the grid -/

theorem zero_offsets : (![0, 0] : Fin 2 → Nat) = fun _ => 0 := funext fun a => by fin_cases a <;> rfl

/-- Decided over the 16 steps: the first input's window and the result's window are at block row `t`, block column 0;
    the second input's window and the prepared row's window stay at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What step `t` writes back -/

/-- Step `t` writes back block `t` of the kernel's arrangement of the two inputs. -/
theorem flushed_eq (c : Dev nD) (t : Fin cfg0.N) :
    (dats m 0 c).flushed 3 t
      = ((cfg0.win 3).blk t).view.read (Elt Ideal) (Cert.MatchCount.oneProductArray (firstInput m c) (secondInput m c)) := by
  rw [Cert.KernelIdeal.Value.flushed3]
  unfold out0_3
  rw [View.canon_unit_zero zero_offsets]
  simp only [View.ld_unit_zero (S := S256x10000) zero_offsets, View.ld_unit_zero (S := S100x10000) zero_offsets,
    View.ld_unit_zero (S := S1x100) zero_offsets]
  obtain ⟨e00, e01, e10, e11, e20, e21, e30, e31⟩ := block_indices t
  funext j
  show k0_pay1 (F := Ideal) (iblk m c 0 t) (iblk m c 1 t) (iblk m c 2 t) j
    = Cert.MatchCount.oneProductArray (firstInput m c) (secondInput m c) (((cfg0.win 3).blk t).view.emb j)
  refine stored_entry (iblk m c 0 t) (iblk m c 1 t) (iblk m c 2 t) (firstInput m c) (secondInput m c) j
    (((cfg0.win 3).blk t).view.emb j) t.val ?_ ?_ ?_ ?_ ?_
  · intro p k r hr
    show V m c main_arg0 (((cfg0.win 0).blk t).view.emb (ix2 p k)) = firstInput m c (ix2 r k)
    refine (congrFun (V_main_arg0 m c) _).trans (congrArg (firstInput m c) (funext fun ax => Fin.ext ?_))
    match ax with
    | ⟨0, _⟩ => show win0_0.index t (0 : Fin 2) * 256 + 1 * p.val = r.val; omega
    | ⟨1, _⟩ => show win0_0.index t (1 : Fin 2) * 10000 + 1 * k.val = k.val; omega
  · funext y
    show V m c main_arg1 (((cfg0.win 1).blk t).view.emb y) = secondInput m c y
    refine (congrFun (V_main_arg1 m c) _).trans (congrArg (secondInput m c) (funext fun ax => Fin.ext ?_))
    match ax with
    | ⟨0, _⟩ => show win0_1.index t (0 : Fin 2) * 100 + 1 * (y 0).val = (y 0).val; omega
    | ⟨1, _⟩ => show win0_1.index t (1 : Fin 2) * 10000 + 1 * (y 1).val = (y 1).val; omega
  · intro j'
    show (V m c main_v1 : S1x100.Idx → EReal) (((cfg0.win 2).blk t).view.emb (ix2 (0 : Fin 1) j')) = _
    refine Eq.trans (congrArg (V m c main_v1 : S1x100.Idx → EReal) (funext fun ax => Fin.ext ?_)) (preparedRow_at m c j')
    match ax with
    | ⟨0, _⟩ => show win0_2.index t (0 : Fin 2) * 1 + 1 * 0 = 0; omega
    | ⟨1, _⟩ => show win0_2.index t (1 : Fin 2) * 100 + 1 * j'.val = j'.val; omega
  · show win0_3.index t (0 : Fin 2) * 256 + 1 * (j 0).val = t.val * 256 + (j 0).val; omega
  · show win0_3.index t (1 : Fin 2) * 100 + 1 * (j 1).val = (j 1).val; omega

/-! ## The blocks tile the result -/

/-- An index of the result is in step `t`'s block iff each coordinate is in the block's range on its axis. -/
theorem mem_block (t : Fin cfg0.N) (i : S4096x100.Idx) :
    i ∈ ((cfg0.win 3).blk t).view.set ↔ ∀ a : Fin 2, win0_3.index t a * S256x100.size a ≤ (i a).val ∧ (i a).val < win0_3.index t a * S256x100.size a + S256x100.size a := by
  show i ∈ ((View.whole main_v2).slice (win0_3.rect t)).set ↔ _
  rw [View.set_slice_whole, Rect.mem_set_unit]
  exact Iff.rfl

/-- Row `r` of the result is written by step `r / 256`. -/
theorem covered (i : S4096x100.Idx) :
    ∃ t : Fin cfg0.N, (cfg0.win 3).flush t = true ∧ i ∈ ((cfg0.win 3).blk t).view.set := by
  have hi0 : (i 0).val < 4096 := (i 0).isLt
  have hi1 : (i 1).val < 100 := (i 1).isLt
  have hN : grid0.N = 16 := N_0
  have ht : (i 0).val / 256 < grid0.N := by rw [hN]; omega
  refine ⟨⟨(i 0).val / 256, ht⟩, flush0_3 _, ?_⟩
  rw [mem_block]
  obtain ⟨-, -, -, -, -, -, e30, e31⟩ := block_indices ⟨(i 0).val / 256, ht⟩
  have e30' : win0_3.index ⟨(i 0).val / 256, ht⟩ (0 : Fin 2) = (i 0).val / 256 := e30
  intro a
  match a with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    omega
  | ⟨1, _⟩ =>
    show win0_3.index ⟨(i 0).val / 256, ht⟩ (1 : Fin 2) * 100 ≤ (i 1).val ∧ (i 1).val < win0_3.index ⟨(i 0).val / 256, ht⟩ (1 : Fin 2) * 100 + 100
    omega

/-! ## The array, and the run -/

/-- After the run the result array holds the kernel's arrangement of the two inputs. -/
theorem final (c : Dev nD) :
    (dats m 0 c).arrAt 3 cfg0.N = Cert.MatchCount.oneProductArray (firstInput m c) (secondInput m c) :=
  (dats m 0 c).arrAt_eq_of_cover 3 _ (fun t _ => flushed_eq m c t) covered

/-- Every weakly fair execution of the idealized kernel terminates with the result array at the kernel's arrangement
    of the two inputs, the inputs unchanged. -/
theorem run : θ_run defs (onTc (τ := τ) (main (F := Ideal))) ⟨m, fun _ => 0, ρ⟩ fun r => ∀ c : Dev nD,
      r.2.mem ((c : Thread nD τ).loc main_v2) = Cert.MatchCount.oneProductArray (firstInput m c) (secondInput m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.ArrayValue

end
-- ==== Proof.ReferenceArray.lean ====
/-
  The reference's result array.

  The reference multiplies the two inputs (contracting their second axes), multiplies their complements `1 − q` and
  `1 − a` the same way, and adds the two products. Read at entry `(r, c)`, operation by operation, that is the sum over
  a row's positions of `q(r, k) · a(c, k)` plus the sum of `(1 − q(r, k)) · (1 − a(c, k))`: the reference's
  arrangement of row `r` against row `c`.
-/
import proofs.«115294_j38036230373918_1_alg».proof.Proof.Gen.ReferenceIdeal.Read
import proofs.«115294_j38036230373918_1_alg».proof.Proof.MatchCount

noncomputable section

open scoped BigOperators

namespace Cert.ReferenceIdeal.ArrayValue

open Cert.ReferenceIdeal Cert.ReferenceIdeal.Read Idealize.ShloMosaic Idealize.ShloMosaic.ValueIdx

/-- The last stage of the reference's run, as one function of the two inputs, is the reference's arrangement. -/
theorem result_eq (x0 : FVec Ideal S4096x10000 .f32) (x1 : FVec Ideal S100x10000 .f32) :
    val_main_v6 (F := Ideal) x0 x1 = Cert.MatchCount.twoProductsArray x0 x1 := by
  funext i
  have el0 : ∀ k, lidx_main_v0 i k = ix2 (i 0 : Fin 4096) k := fun k => funext fun a => Fin.ext (by
    match a with | ⟨0, _⟩ => rfl | ⟨1, _⟩ => rfl)
  have er0 : ∀ k, ridx_main_v0 i k = ix2 (i 1 : Fin 100) k := fun k => funext fun a => Fin.ext (by
    match a with | ⟨0, _⟩ => rfl | ⟨1, _⟩ => rfl)
  have el5 : ∀ k, lidx_main_v5 i k = ix2 (i 0 : Fin 4096) k := fun k => funext fun a => Fin.ext (by
    match a with | ⟨0, _⟩ => rfl | ⟨1, _⟩ => rfl)
  have er5 : ∀ k, ridx_main_v5 i k = ix2 (i 1 : Fin 100) k := fun k => funext fun a => Fin.ext (by
    match a with | ⟨0, _⟩ => rfl | ⟨1, _⟩ => rfl)
  rw [val_main_v6_apply, val_main_v0_apply, val_main_v5_apply]
  simp only [val_main_v2_apply, val_main_v4_apply, val_main_v1_apply, val_main_v3_apply, val_main_cst_apply,
    val_main_cst_0_apply, el0, er0, el5, er5]
  rfl

end Cert.ReferenceIdeal.ArrayValue

end
-- ==== Proof.lean ====
/-
  The kernel computes, for every row `q` of the first input (4096 rows) and every row `a` of the second (100 rows), both
  of length 10000, the number
      ((2 · Σ q·a + 10000) − Σ q) − Σ a,
  one matrix product corrected by the two row sums; the reference computes
      Σ q·a + Σ (1 − q)·(1 − a),
  two matrix products. Since (1 − q)(1 − a) = 1 − q − a + q·a and the 10000 ones of a row add up to 10000, the two
  are the same real number for any real entries (Proof/MatchCount.lean). On the extended reals the step distributes and
  cancels, so it needs the entries finite, which is what the precondition says (Proof/FiniteEntries.lean).

  The kernel side: each of the 16 grid steps stores a 256 × 100 block whose entry `(p, c)` is that expression of the
  block's row `p`, the second input's row `c` and the host's row sum of row `c` (Proof/BlockPayload.lean,
  Proof/PreparedRow.lean); the blocks tile the result (Proof/KernelArray.lean). The reference side is read operation by
  operation (Proof/ReferenceArray.lean). Both programs' frames are their runs with the results dropped, and the kernel's
  idealization rewrote nothing, so there is nothing to preserve.
-/
import proofs.«115294_j38036230373918_1_alg».proof.Defs
import proofs.«115294_j38036230373918_1_alg».proof.Proof.Gen.Kernel
import proofs.«115294_j38036230373918_1_alg».proof.Proof.Gen.Kernel.Skeleton
import proofs.«115294_j38036230373918_1_alg».proof.Proof.Gen.Kernel.Launch
import proofs.«115294_j38036230373918_1_alg».proof.Proof.Gen.Kernel.Points
import proofs.«115294_j38036230373918_1_alg».proof.Proof.Gen.Kernel.Frame
import proofs.«115294_j38036230373918_1_alg».proof.Proof.Gen.KernelIdeal
import proofs.«115294_j38036230373918_1_alg».proof.Proof.Gen.KernelIdeal.Skeleton
import proofs.«115294_j38036230373918_1_alg».proof.Proof.Gen.KernelIdeal.Launch
import proofs.«115294_j38036230373918_1_alg».proof.Proof.Gen.KernelIdeal.Points
import proofs.«115294_j38036230373918_1_alg».proof.Proof.Gen.KernelIdeal.Frame
import proofs.«115294_j38036230373918_1_alg».proof.Proof.Gen.ReferenceIdeal
import proofs.«115294_j38036230373918_1_alg».proof.Proof.Gen.Pre_finite_inputs
import proofs.«115294_j38036230373918_1_alg».proof.Proof.Gen.KernelIdeal.Value
import proofs.«115294_j38036230373918_1_alg».proof.Proof.Gen.ReferenceIdeal.Run
import proofs.«115294_j38036230373918_1_alg».proof.Proof.Gen.ReferenceIdeal.Read
import proofs.«115294_j38036230373918_1_alg».proof.Proof.FiniteEntries
import proofs.«115294_j38036230373918_1_alg».proof.Proof.KernelArray
import proofs.«115294_j38036230373918_1_alg».proof.Proof.ReferenceArray
import Idealize.ShloMosaic.Adequacy
import Idealize.ShloMosaic.Init

noncomputable section

namespace Cert.Proof

open Idealize.ShloMosaic Idealize.ShloMosaic.TcCoe Idealize.SL.Sem

/-- The kernel as printed runs and leaves its two inputs as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From inputs that agree and are finite, the kernel's result array — one product corrected by the row sums — and the
    reference's — two products — are equal entry by entry: the reference's run ends at its arrangement of the inputs,
    which for real entries is the kernel's. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hq, ha⟩ := Cert.FiniteEntries.entries_real _ _ (hpre c)
  rw [(hagree c).1, (hagree c).2]
  exact (Cert.ReferenceIdeal.Read.val_main_v6_eq _ _).trans
    ((Cert.ReferenceIdeal.ArrayValue.result_eq _ _).trans
      (Cert.MatchCount.oneProductArray_eq_twoProductsArray _ _ hq ha).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
